-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x256 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S600000 32) (main_arg2 : IVec S600000 32) (main_arg3 : FVec F S50000x128 .f32) (main_arg4 : FVec F S600000 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S600000 .f32 := Host.absf main_arg4
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S600000x1 : Shape := ⟨2, ![600000, 1]⟩
abbrev S1x128 : Shape := ⟨2, ![1, 128]⟩
abbrev S5000x128 : Shape := ⟨2, ![5000, 128]⟩
abbrev S_ : Shape := ⟨0, ![]⟩
abbrev S600000x128 : Shape := ⟨2, ![600000, 128]⟩
abbrev S10000x128 : Shape := ⟨2, ![10000, 128]⟩
abbrev S4000x128 : Shape := ⟨2, ![4000, 128]⟩
abbrev S4000x1 : Shape := ⟨2, ![4000, 1]⟩

abbrev nBuf : Space → Nat
  | .hbm => 57
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S50000x128, .f32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S600000x1, .f32⟩
  | .hbm, ⟨12, _⟩ => ⟨S1x128, .f32⟩
  | .hbm, ⟨13, _⟩ => ⟨S50000x128, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S10000x128, .f32⟩
  | .hbm, ⟨27, _⟩ => ⟨S600000x1, .i32⟩
  | .hbm, ⟨28, _⟩ => ⟨S10000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S128x128, .f32⟩
  | .hbm, ⟨48, _⟩ => ⟨S128x128, .f32⟩
  | .hbm, ⟨49, _⟩ => ⟨S1x128, .f32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S1x128, .f32⟩
  | .hbm, ⟨56, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S600000_S600000x1 : S600000.ShapeCasts S600000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S10000x128 : S_.BroadcastsInDim S10000x128 (![] : Fin 0 → Fin S10000x128.rank)
  slices_S128x256_S128x128_0_0 : S128x256.Slices ![0, 0] S128x128
  slices_S128x256_S128x128_0_128 : S128x256.Slices ![0, 128] S128x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  shapeCasts_S128x128_S128x128 : S128x128.ShapeCasts S128x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S10000x128_S600000x1_S600000x128_1_0_0_1_wf : ScatterDims.WF S10000x128 S600000x1 S600000x128 [1] [0] [0] 1
  gather_S10000x128_S600000x1_S600000x128_1_0_n_n_0_1_1128_wf : GatherDims.WF S10000x128 S600000x1 S600000x128 [1] [0] [] [0] [] 1 ![1, 128]
  dot_S4000x128_S128x128_S4000x128_1_0_0_1_n_n_wf : DotDims.WF S4000x128 S128x128 S4000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S600000x128.size a
  hwx1_0 : ∀ i : grid1.Coords, EltTy.bits .f32 = 32 ∨ (Rect.block (s := S600000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S600000x128.size a
  hwx1_1 : ∀ i : grid1.Coords, EltTy.bits .f32 = 32 ∨ (Rect.block (s := S600000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S600000x1.size a
  hwx1_5 : ∀ i : grid1.Coords, EltTy.bits .f32 = 32 ∨ (Rect.block (s := S600000x1) S4000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S600000x128.size a
  hwx1_6 : ∀ i : grid1.Coords, EltTy.bits .f32 = 32 ∨ (Rect.block (s := S600000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S10000x128_S600000x1_S600000x128_1_0_0_1 : ScatterDims S10000x128 S600000x1 S600000x128 where
  updateWindowDims := [1]
  insertedWindowDims := [0]
  scatterDimsToOperandDims := [0]
  indexVectorDim := 1
  wf := scatter_S10000x128_S600000x1_S600000x128_1_0_0_1_wf
def gather_S10000x128_S600000x1_S600000x128_1_0_n_n_0_1_1128 : GatherDims S10000x128 S600000x1 S600000x128 where
  offsetDims := [1]
  collapsedSliceDims := [0]
  operandBatchingDims := []
  startIndicesBatchingDims := []
  startIndexMap := [0]
  indexVectorDim := 1
  sliceSizes := ![1, 128]
  wf := gather_S10000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S4000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x256 : Shape := ⟨2, ![128, 256]⟩
abbrev S600000x1 : Shape := ⟨2, ![600000, 1]⟩
abbrev S1x128 : Shape := ⟨2, ![1, 128]⟩
abbrev S_ : Shape := ⟨0, ![]⟩
abbrev S600000x128 : Shape := ⟨2, ![600000, 128]⟩
abbrev S10000x128 : Shape := ⟨2, ![10000, 128]⟩
abbrev S600000x256 : Shape := ⟨2, ![600000, 256]⟩
abbrev S256x128 : Shape := ⟨2, ![256, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S50000x128, .f32⟩
  | .hbm, ⟨4, _⟩ => ⟨S600000, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S600000x1, .f32⟩
  | .hbm, ⟨12, _⟩ => ⟨S128x128, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S600000x128, .f32⟩
  | .hbm, ⟨27, _⟩ => ⟨S600000x128, .f32⟩
  | .hbm, ⟨28, _⟩ => ⟨S_, .f32⟩
  | .hbm, ⟨29, _⟩ => ⟨S10000x128, .f32⟩
  | .hbm, ⟨30, _⟩ => ⟨S600000x1, .i32⟩
  | .hbm, ⟨31, _⟩ => ⟨S10000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S600000x256, .f32⟩
  | .hbm, ⟨51, _⟩ => ⟨S256x128, .f32⟩
  | .hbm, ⟨52, _⟩ => ⟨S600000x128, .f32⟩
  | .hbm, ⟨53, _⟩ => ⟨S1x128, .f32⟩
  | .hbm, ⟨54, _⟩ => ⟨S600000x128, .f32⟩
  | .hbm, ⟨55, _⟩ => ⟨S600000x128, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S10000x128 : S_.BroadcastsInDim S10000x128 (![] : Fin 0 → Fin S10000x128.rank)
  concatenates_S600000x128_S600000x128_S600000x256_d1 : Shape.Concatenates [S600000x128, S600000x128] S600000x256 1
  transposes_S128x256_S256x128_1_0 : S128x256.Transposes [1, 0] S256x128
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S10000x128_S600000x1_S600000x128_1_0_0_1_wf : ScatterDims.WF S10000x128 S600000x1 S600000x128 [1] [0] [0] 1
  gather_S10000x128_S600000x1_S600000x128_1_0_n_n_0_1_1128_wf : GatherDims.WF S10000x128 S600000x1 S600000x128 [1] [0] [] [0] [] 1 ![1, 128]
  dot_S600000x256_S256x128_S600000x128_1_0_0_1_n_n_wf : DotDims.WF S600000x256 S256x128 S600000x128 [1] [0] [0] [1] [] []
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S10000x128_S600000x1_S600000x128_1_0_0_1 : ScatterDims S10000x128 S600000x1 S600000x128 where
  updateWindowDims := [1]
  insertedWindowDims := [0]
  scatterDimsToOperandDims := [0]
  indexVectorDim := 1
  wf := scatter_S10000x128_S600000x1_S600000x128_1_0_0_1_wf
def gather_S10000x128_S600000x1_S600000x128_1_0_n_n_0_1_1128 : GatherDims S10000x128 S600000x1 S600000x128 where
  offsetDims := [1]
  collapsedSliceDims := [0]
  operandBatchingDims := []
  startIndicesBatchingDims := []
  startIndexMap := [0]
  indexVectorDim := 1
  sliceSizes := ![1, 128]
  wf := gather_S10000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.Spec.lean ====
import Idealize.ShloMosaic.Lib.ValueIdx
import Idealize.ShloMosaic.PureOps.Ideal.Laws

/-!
The three dense stages of the hypergraph convolution are affine maps of rows: a row of the result is the
row of the operand against every row of a weight matrix (the weight is stored output-major, so entry
`(p, q)` contracts row `p` of the operand with row `q` of the weight), plus a bias per column. This file
states that map once, index by index, over the extended reals, for any number of rows.
-/

noncomputable section

namespace Cert.Spec

open Idealize.ShloMosaic Idealize.ShloMosaic.ValueIdx

/-- The contraction of row `p` of `X` with row `q` of `W` over the 128 shared columns. -/
def rowDot {M N : Nat} (X : (⟨2, ![M, 128]⟩ : Shape).Idx → EReal) (W : (⟨2, ![N, 128]⟩ : Shape).Idx → EReal)
    (p : Fin M) (q : Fin N) : EReal :=
  ∑ k : Fin 128, X (ix2 p k) * W (ix2 q k)

/-- Entry `(p, q)` of `X · Wᵀ + b`, the bias given as a one-row matrix. -/
def affRow {M : Nat} (X : (⟨2, ![M, 128]⟩ : Shape).Idx → EReal) (W : (⟨2, ![128, 128]⟩ : Shape).Idx → EReal)
    (B : (⟨2, ![1, 128]⟩ : Shape).Idx → EReal) (p : Fin M) (q : Fin 128) : EReal :=
  rowDot X W p q + B (ix2 (0 : Fin 1) q)

end Cert.Spec

end
-- ==== Proof.Pay0.lean ====
import proofs.«163404_j49658411876804_1_alg».proof.Proof.Gen.KernelIdeal.Skeleton
import proofs.«163404_j49658411876804_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
What the first dense kernel stores at entry `(p, q)` of its block, over the extended reals: the matrix unit's
product into a zero accumulator is the plain sum over the contraction coordinate, the narrowing to bf16 is the
identity, the weight's transpose swaps its two coordinates, and the bias row is broadcast down the rows. So the
entry is the affine map of `Spec` at the block's rows.
-/

noncomputable section

namespace Cert.KernelIdeal.Pay

open Cert.KernelIdeal Cert.KernelIdeal.Gen Cert.Spec
open Idealize.ShloMosaic Idealize.ShloMosaic.ValueIdx

theorem lhs5000_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs5000_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs5000_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs5000_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000-row block times a 128×128 matrix into a zero accumulator, at entry `(p, q)`: the sum over the
    contraction coordinate `k` of the left operand at `(p, k)` times the right at `(k, q)`. -/
theorem mm5000_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs5000_0 _ _
    | ⟨1, _⟩ => exact (lhs5000_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs5000_0 _ _).trans hk
    | ⟨1, _⟩ => exact rhs5000_1 _ _)
  rw [el, er]

/-- The first kernel's stored value at `(p, q)` is the affine map of its three loaded blocks. -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = affRow x0 x1 x2 p q := by
  unfold k0_pay1 affRow rowDot
  rw [addf_apply, mm5000_apply, broadcastTo_1b_ab_apply, shapeCast_self]
  refine congrArg (· + _) (Finset.sum_congr rfl fun k _ => ?_)
  rw [transpose_ix2_apply]
  rfl

end Cert.KernelIdeal.Pay

end
-- ==== Proof.Reg0.lean ====
import proofs.«163404_j49658411876804_1_alg».proof.Proof.Gen.KernelIdeal.Frame
import proofs.«163404_j49658411876804_1_alg».proof.Proof.Pay0
import Idealize.ShloMosaic.Lib.Pipeline.Value
import Idealize.ShloMosaic.Lib.ValueIdx

/-!
The first dense stage over the whole array. The grid has ten points; point `t` reads rows `5000·t … 5000·t + 4999`
of the operand, the whole weight and the whole bias row, and writes the same rows of the result. Every row lies in
exactly one such block (row `r` in block `r / 5000`), so after the last point the result array is the affine map
of the operand, index by index, whatever the buffers held when the region was entered.
-/

set_option maxRecDepth 16384

noncomputable section

namespace Cert.KernelIdeal.Reg0

open Cert.KernelIdeal Cert.KernelIdeal.Gen Cert.KernelIdeal.Pay Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- `X · Wᵀ + b` over all 50000 rows. -/
def lin (X : S50000x128.Idx → EReal) (W : S128x128.Idx → EReal) (B : S1x128.Idx → EReal) : S50000x128.Idx → EReal :=
  fun i => affRow X W B (i 0) (i 1)

/-- The block index maps over the grid: the operand's and the result's row block is the point's number, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the operand's block at point `t` is row `5000·t + p` of the operand. -/
theorem blk_x (c : Dev nD) (t : Fin cfg0.N) (p : Fin 5000) (k : Fin 128) (r : Fin 50000) (hr : r.val = t.val * 5000 + p.val) :
    iblk0 V c 0 t (ix2 p k) = V c main_arg0 (ix2 r k) := by
  obtain ⟨e0, e1, -⟩ := idx_facts t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight's block at every point is the weight. -/
theorem blk_w (c : Dev nD) (t : Fin cfg0.N) (q : Fin 128) (k : Fin 128) :
    iblk0 V c 1 t (ix2 q k) = V c main_arg5 (ix2 q k) := by
  obtain ⟨-, -, e0, e1, -⟩ := idx_facts t
  unfold iblk0
  rw [View.read_apply]
  show V c main_arg5 (((cfg0.win 1).blk t).view.emb (ix2 q k)) = V c main_arg5 (ix2 q k)
  refine congrArg (V c main_arg5) (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- The bias row's block at every point is the bias row. -/
theorem blk_b (c : Dev nD) (t : Fin cfg0.N) (q : Fin 128) :
    iblk0 V c 2 t (ix2 (0 : Fin 1) q) = V c main_v1 (ix2 (0 : Fin 1) q) := by
  obtain ⟨-, -, -, -, e0, e1, -⟩ := idx_facts t
  unfold iblk0
  rw [View.read_apply]
  show V c main_v1 (((cfg0.win 2).blk t).view.emb (ix2 (0 : Fin 1) q)) = V c main_v1 (ix2 (0 : Fin 1) q)
  refine congrArg (V c main_v1) (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 128 + 1 * q.val = q.val; omega

/-- What point `t` writes back is its block of the affine map of the arrays as the region finds them. -/
theorem flushed_eq (c : Dev nD) (t : Fin cfg0.N) :
    (dat0 V c).flushed 3 t = ((cfg0.win 3).blk t).view.read (Elt Ideal) (lin (V c main_arg0) (V c main_arg5) (V c main_v1)) := by
  obtain ⟨-, -, -, -, -, -, e0, e1⟩ := idx_facts t
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := by have h1 := t.isLt; have hN : cfg0.N = 10 := N_0; omega
  have hemb : ((cfg0.win 3).blk t).view.emb (ix2 p q) = (ix2 (⟨t.val * 5000 + p.val, by omega⟩ : Fin 50000) q : S50000x128.Idx) := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
    = lin (V c main_arg0) (V c main_arg5) (V c main_v1) (((cfg0.win 3).blk t).view.emb (ix2 p q))
  rw [hemb]
  refine (pay0_apply (iblk0 V c 0 t) (iblk0 V c 1 t) (iblk0 V c 2 t) p q).trans ?_
  unfold lin affRow rowDot
  rw [blk_b V c t q]
  refine congrArg (· + _) (Finset.sum_congr rfl fun k _ => ?_)
  rw [blk_x V c t p k ⟨t.val * 5000 + p.val, by omega⟩ rfl, blk_w V c t q k]

/-- An index of the result array is in point `t`'s block iff each coordinate is in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- Every row of the result lies in the block of the point numbered by its quotient by 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the result array is the affine map of the entry arrays. -/
theorem final (c : Dev nD) :
    (dat0 V c).arrAt 3 cfg0.N = lin (V c main_arg0) (V c main_arg5) (V c main_v1) :=
  (dat0 V c).arrAt_eq_of_cover 3 (lin (V c main_arg0) (V c main_arg5) (V c main_v1)) (fun t _ => flushed_eq V c t) cover

end Cert.KernelIdeal.Reg0

end
-- ==== Proof.Pay1.lean ====
import proofs.«163404_j49658411876804_1_alg».proof.Proof.Gen.KernelIdeal.Skeleton
import proofs.«163404_j49658411876804_1_alg».proof.Proof.Spec
import Idealize.ShloMosaic.Lib.ValueIdx
import Idealize.ShloMosaic.Lib.ValueLayout
import Idealize.ShloMosaic.Lib.Pipeline.Value
import Idealize.ShloMosaic.PureOps.Ideal.Laws

/-!
What the second dense kernel stores at entry `(p, q)` of its block, over the extended reals: two matrix
products into zero accumulators (the gathered vertex rows against the left half of the weight, the gathered edge
rows against its right half), added, plus the bias row, all times the row's incidence weight, which is a one-column
block broadcast along the columns.
-/

noncomputable section

namespace Cert.KernelIdeal.Pay

open Cert.KernelIdeal Cert.KernelIdeal.Gen Cert.Spec
open Idealize.ShloMosaic Idealize.ShloMosaic.ValueIdx

/-- A one-column matrix broadcast along the columns reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else c.val
    rw [if_pos rfl]

theorem lhs4000_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs4000_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs4000_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs4000_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000-row block times a 128×128 matrix into a zero accumulator, at entry `(p, q)`: the sum over the
    contraction coordinate `k` of the left operand at `(p, k)` times the right at `(k, q)`. -/
theorem mm4000_apply (l : FVec Ideal S4000x128 .bf16) (r : FVec Ideal S128x128 .bf16) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  show FloatOps.matmul dot_S4000x128_S128x128_S4000x128_1_0_0_1_n_n none l r (constant S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs4000_0 _ _
    | ⟨1, _⟩ => exact (lhs4000_1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs4000_0 _ _).trans hk
    | ⟨1, _⟩ => exact rhs4000_1 _ _)
  rw [el, er]

/-- Entry `(p, q)` of `(A · Wlᵀ + B · Wrᵀ + b) ⊙ w`, the row weight `w` a one-column matrix. -/
def pairRow {M : Nat} (A B : (⟨2, ![M, 128]⟩ : Shape).Idx → EReal) (Wl Wr : (⟨2, ![128, 128]⟩ : Shape).Idx → EReal)
    (bias : (⟨2, ![1, 128]⟩ : Shape).Idx → EReal) (w : (⟨2, ![M, 1]⟩ : Shape).Idx → EReal) (p : Fin M) (q : Fin 128) : EReal :=
  (rowDot A Wl p q + rowDot B Wr p q + bias (ix2 (0 : Fin 1) q)) * w (ix2 p (0 : Fin 1))

/-- The second kernel's stored value at `(p, q)` is that map of its six loaded blocks. -/
theorem pay1_apply (x0 x1 : Vec Ideal S4000x128 .f32) (x2 x3 : Vec Ideal S128x128 .f32) (x4 : Vec Ideal S1x128 .f32)
    (x5 : Vec Ideal S4000x1 .f32) (p : Fin 4000) (q : Fin 128) :
    k1_pay1 (F := Ideal) x0 x1 x2 x3 x4 x5 (ix2 p q) = pairRow x0 x1 x2 x3 x4 x5 p q := by
  unfold k1_pay1 pairRow rowDot
  rw [mulf_apply, addf_apply, addf_apply, mm4000_apply, mm4000_apply, broadcastTo_1b_ab_apply, broadcastTo_a1_ab_apply]
  simp only [shapeCast_self]
  refine congrArg (· * _) (congrArg (· + _) ?_)
  refine congrArg₂ (· + ·) (Finset.sum_congr rfl fun k _ => ?_) (Finset.sum_congr rfl fun k _ => ?_)
  · rw [transpose_ix2_apply]; rfl
  · rw [transpose_ix2_apply]; rfl

end Cert.KernelIdeal.Pay

end
-- ==== Proof.Reg1.lean ====
import proofs.«163404_j49658411876804_1_alg».proof.Proof.Gen.KernelIdeal.Frame
import proofs.«163404_j49658411876804_1_alg».proof.Proof.Pay1
import Idealize.ShloMosaic.Lib.Pipeline.Value
import Idealize.ShloMosaic.Lib.ValueIdx

/-!
The second dense stage over the whole array of incidence pairs. The grid has 150 points; point `t` reads rows
`4000·t … 4000·t + 3999` of the gathered vertex rows, of the gathered edge rows and of the one-column array of
incidence weights, both halves of the weight and the bias row whole, and writes the same rows of the result. Row `r`
lies in block `r / 4000`, so the result array ends as `(A · Wlᵀ + B · Wrᵀ + b) ⊙ w` of the entry arrays, index by index.
-/

set_option maxRecDepth 16384

noncomputable section

namespace Cert.KernelIdeal.Reg1

open Cert.KernelIdeal Cert.KernelIdeal.Gen Cert.KernelIdeal.Pay Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- `(A · Wlᵀ + B · Wrᵀ + b) ⊙ w` over all 600000 rows. -/
def pairAll (A B : S600000x128.Idx → EReal) (Wl Wr : S128x128.Idx → EReal) (bias : S1x128.Idx → EReal)
    (w : S600000x1.Idx → EReal) : S600000x128.Idx → EReal :=
  fun i => pairRow A B Wl Wr bias w (i 0) (i 1)

/-- The block index maps over the grid: the three row operands' and the result's row block is the point's number, every
    other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `p` of the gathered vertex rows' block at point `t` is row `4000·t + p` of that array. -/
theorem blk_a (c : Dev nD) (t : Fin cfg1.N) (p : Fin 4000) (k : Fin 128) (r : Fin 600000) (hr : r.val = t.val * 4000 + p.val) :
    iblk1 V c 0 t (ix2 p k) = V c main_v21 (ix2 r k) := by
  obtain ⟨e0, e1, -⟩ := idx_facts t
  unfold iblk1
  rw [View.read_apply]
  show V c main_v21 (((cfg1.win 0).blk t).view.emb (ix2 p k)) = V c main_v21 (ix2 r k)
  refine congrArg (V c main_v21) (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row `p` of the gathered edge rows' block at point `t` is row `4000·t + p` of that array. -/
theorem blk_b (c : Dev nD) (t : Fin cfg1.N) (p : Fin 4000) (k : Fin 128) (r : Fin 600000) (hr : r.val = t.val * 4000 + p.val) :
    iblk1 V c 1 t (ix2 p k) = V c main_v28 (ix2 r k) := by
  obtain ⟨-, -, e0, e1, -⟩ := idx_facts t
  unfold iblk1
  rw [View.read_apply]
  show V c main_v28 (((cfg1.win 1).blk t).view.emb (ix2 p k)) = V c main_v28 (ix2 r k)
  refine congrArg (V c main_v28) (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- The left weight half's block at every point is that matrix. -/
theorem blk_wl (c : Dev nD) (t : Fin cfg1.N) (q : Fin 128) (k : Fin 128) :
    iblk1 V c 2 t (ix2 q k) = V c main_v29 (ix2 q k) := by
  obtain ⟨-, -, -, -, e0, e1, -⟩ := idx_facts t
  unfold iblk1
  rw [View.read_apply]
  show V c main_v29 (((cfg1.win 2).blk t).view.emb (ix2 q k)) = V c main_v29 (ix2 q k)
  refine congrArg (V c main_v29) (funext fun a => Fin.ext ?_)
  match a with
  | ⟨0, _⟩ => show win1_2.index t (0 : Fin 2) * 128 + 1 * q.val = q.val; omega
  | ⟨1, _⟩ => show win1_2.index t (1 : Fin 2) * 128 + 1 * k.val = k.val; omega

/-- The right weight half's block at every point is that matrix. -/
theorem blk_wr (c : Dev nD) (t : Fin cfg1.N) (q : Fin 128) (k : Fin 128) :
    iblk1 V c 3 t (ix2 q k) = V c main_v30 (ix2 q k) := by
  obtain ⟨-, -, -, -, -, -, e0, e1, -⟩ := idx_facts t
  unfold iblk1
  rw [View.read_apply]
  show V c main_v30 (((cfg1.win 3).blk t).view.emb (ix2 q k)) = V c main_v30 (ix2 q k)
  refine congrArg (V c main_v30) (funext fun a => Fin.ext ?_)
  match a with
  | ⟨0, _⟩ => show win1_3.index t (0 : Fin 2) * 128 + 1 * q.val = q.val; omega
  | ⟨1, _⟩ => show win1_3.index t (1 : Fin 2) * 128 + 1 * k.val = k.val; omega

/-- The bias row's block at every point is the bias row. -/
theorem blk_bias (c : Dev nD) (t : Fin cfg1.N) (q : Fin 128) :
    iblk1 V c 4 t (ix2 (0 : Fin 1) q) = V c main_v31 (ix2 (0 : Fin 1) q) := by
  obtain ⟨-, -, -, -, -, -, -, -, e0, e1, -⟩ := idx_facts t
  unfold iblk1
  rw [View.read_apply]
  show V c main_v31 (((cfg1.win 4).blk t).view.emb (ix2 (0 : Fin 1) q)) = V c main_v31 (ix2 (0 : Fin 1) q)
  refine congrArg (V c main_v31) (funext fun a => Fin.ext ?_)
  match a with
  | ⟨0, _⟩ => show win1_4.index t (0 : Fin 2) * 1 + 1 * (0 : Fin 1).val = (0 : Fin 1).val; rw [e0]; rfl
  | ⟨1, _⟩ => show win1_4.index t (1 : Fin 2) * 128 + 1 * q.val = q.val; omega

/-- Row `p` of the incidence weights' one-column block at point `t` is row `4000·t + p` of that array. -/
theorem blk_w (c : Dev nD) (t : Fin cfg1.N) (p : Fin 4000) (r : Fin 600000) (hr : r.val = t.val * 4000 + p.val) :
    iblk1 V c 5 t (ix2 p (0 : Fin 1)) = V c main_v0 (ix2 r (0 : Fin 1)) := by
  obtain ⟨-, -, -, -, -, -, -, -, -, -, e0, e1, -⟩ := idx_facts t
  unfold iblk1
  rw [View.read_apply]
  show V c main_v0 (((cfg1.win 5).blk t).view.emb (ix2 p (0 : Fin 1))) = V c main_v0 (ix2 r (0 : Fin 1))
  refine congrArg (V c main_v0) (funext fun a => Fin.ext ?_)
  match a with
  | ⟨0, _⟩ => show win1_5.index t (0 : Fin 2) * 4000 + 1 * p.val = r.val; omega
  | ⟨1, _⟩ => show win1_5.index t (1 : Fin 2) * 1 + 1 * (0 : Fin 1).val = (0 : Fin 1).val; rw [e1]; rfl

/-- What point `t` writes back is its block of the map of the arrays as the region finds them. -/
theorem flushed_eq (c : Dev nD) (t : Fin cfg1.N) :
    (dat1 V c).flushed 6 t = ((cfg1.win 6).blk t).view.read (Elt Ideal)
      (pairAll (V c main_v21) (V c main_v28) (V c main_v29) (V c main_v30) (V c main_v31) (V c main_v0)) := by
  obtain ⟨-, -, -, -, -, -, -, -, -, -, -, -, e0, e1⟩ := idx_facts t
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz, View.ld_unit_zero (S := S4000x1) hz]
  funext j
  obtain ⟨p, q, rfl⟩ : ∃ (p : Fin 4000) (q : Fin 128), j = ix2 p q := ⟨j 0, j 1, eq_ix2 j⟩
  have ht : t.val < 150 := by have h1 := t.isLt; have hN : cfg1.N = 150 := N_1; omega
  have hemb : ((cfg1.win 6).blk t).view.emb (ix2 p q) = (ix2 (⟨t.val * 4000 + p.val, by omega⟩ : Fin 600000) q : S600000x128.Idx) := by
    funext a; apply Fin.ext
    match a with
    | ⟨0, _⟩ => show win1_6.index t (0 : Fin 2) * 4000 + 1 * p.val = t.val * 4000 + p.val; omega
    | ⟨1, _⟩ => show win1_6.index t (1 : Fin 2) * 128 + 1 * q.val = q.val; omega
  show k1_pay1 (F := Ideal) (iblk1 V c 0 t) (iblk1 V c 1 t) (iblk1 V c 2 t) (iblk1 V c 3 t) (iblk1 V c 4 t) (iblk1 V c 5 t) (ix2 p q)
    = pairAll (V c main_v21) (V c main_v28) (V c main_v29) (V c main_v30) (V c main_v31) (V c main_v0) (((cfg1.win 6).blk t).view.emb (ix2 p q))
  rw [hemb]
  refine (pay1_apply (iblk1 V c 0 t) (iblk1 V c 1 t) (iblk1 V c 2 t) (iblk1 V c 3 t) (iblk1 V c 4 t) (iblk1 V c 5 t) p q).trans ?_
  unfold pairAll pairRow rowDot
  rw [blk_bias V c t q, blk_w V c t p ⟨t.val * 4000 + p.val, by omega⟩ rfl]
  refine congrArg (· * _) (congrArg (· + _) ?_)
  refine congrArg₂ (· + ·) (Finset.sum_congr rfl fun k _ => ?_) (Finset.sum_congr rfl fun k _ => ?_)
  · rw [blk_a V c t p k ⟨t.val * 4000 + p.val, by omega⟩ rfl, blk_wl V c t q k]
  · rw [blk_b V c t p k ⟨t.val * 4000 + p.val, by omega⟩ rfl, blk_wr V c t q k]

/-- An index of the result array is in point `t`'s block iff each coordinate is in the block's range. -/
theorem mem_blk (t : Fin cfg1.N) (i : S600000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v32).slice (win1_6.rect t)).set ↔ _
  rw [View.set_slice_whole, Rect.mem_set_unit]
  exact Iff.rfl

/-- Every row of the result lies in the block of the point numbered by its quotient by 4000. -/
theorem cover (i : S600000x128.Idx) : ∃ t : Fin cfg1.N, (cfg1.win 6).flush t = true ∧ i ∈ ((cfg1.win 6).blk t).view.set := by
  have hi0 : (i 0).val < 600000 := (i 0).isLt
  have hi1 : (i 1).val < 128 := (i 1).isLt
  have hN : cfg1.N = 150 := N_1
  let t : Fin cfg1.N := ⟨(i 0).val / 4000, by rw [hN]; omega⟩
  obtain ⟨-, -, -, -, -, -, -, -, -, -, -, -, e0, e1⟩ := idx_facts t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- After the region the result array is that map of the entry arrays. -/
theorem final (c : Dev nD) :
    (dat1 V c).arrAt 6 cfg1.N = pairAll (V c main_v21) (V c main_v28) (V c main_v29) (V c main_v30) (V c main_v31) (V c main_v0) :=
  (dat1 V c).arrAt_eq_of_cover 6 (pairAll (V c main_v21) (V c main_v28) (V c main_v29) (V c main_v30) (V c main_v31) (V c main_v0)) (fun t _ => flushed_eq V c t) cover

end Cert.KernelIdeal.Reg1

end
-- ==== Proof.Pay2.lean ====
import proofs.«163404_j49658411876804_1_alg».proof.Proof.Gen.KernelIdeal.Skeleton
import proofs.«163404_j49658411876804_1_alg».proof.Proof.Spec
import proofs.«163404_j49658411876804_1_alg».proof.Proof.Pay0
import Idealize.ShloMosaic.Lib.ValueIdx
import Idealize.ShloMosaic.Lib.ValueLayout
import Idealize.ShloMosaic.Lib.Pipeline.Value
import Idealize.ShloMosaic.PureOps.Ideal.Laws

/-!
What the third dense kernel stores at entry `(p, q)` of its block, over the extended reals: the residual mix
`½ · X0 + ½ · Xv`, entry by entry, then the same affine map as the first kernel applied to the mix.
-/

noncomputable section

namespace Cert.KernelIdeal.Pay

open Cert.KernelIdeal Cert.KernelIdeal.Gen Cert.Spec
open Idealize.ShloMosaic Idealize.ShloMosaic.ValueIdx

/-- The residual mix of two arrays, entry by entry: one half of the first plus one half of the second (the half is the
    f32 word `0x3F000000`, the same on the kernel's and the reference's side). -/
def mix {M : Nat} (A B : (⟨2, ![M, 128]⟩ : Shape).Idx → EReal) : (⟨2, ![M, 128]⟩ : Shape).Idx → EReal :=
  fun i => Ideal.ofBits .f32 0x3F000000#32 * A i + Ideal.ofBits .f32 0x3F000000#32 * B i

/-- The third kernel's stored value at `(p, q)` is the affine map of the mix of its two row blocks. -/
theorem pay2_apply (x0 x1 : Vec Ideal S5000x128 .f32) (x2 : Vec Ideal S128x128 .f32) (x3 : Vec Ideal S1x128 .f32)
    (p : Fin 5000) (q : Fin 128) :
    k2_pay1 (F := Ideal) x0 x1 x2 x3 (ix2 p q) = affRow (mix x0 x1) x2 x3 p q := by
  unfold k2_pay1 affRow rowDot
  rw [addf_apply, mm5000_apply, broadcastTo_1b_ab_apply]
  simp only [shapeCast_self]
  refine congrArg₂ (· + ·) (Finset.sum_congr rfl fun k _ => ?_) rfl
  rw [transpose_ix2_apply]
  rfl

end Cert.KernelIdeal.Pay

end
-- ==== Proof.Reg2.lean ====
import proofs.«163404_j49658411876804_1_alg».proof.Proof.Gen.KernelIdeal.Frame
import proofs.«163404_j49658411876804_1_alg».proof.Proof.Pay2
import Idealize.ShloMosaic.Lib.Pipeline.Value
import Idealize.ShloMosaic.Lib.ValueIdx

/-!
The third dense stage over the whole array. Ten points again; point `t` reads rows `5000·t … 5000·t + 4999` of the
scattered vertex features and of the residual input, the whole weight and bias row, and writes the same rows of the
result: the affine map of the residual mix. Row `r` lies in block `r / 5000`, so the result array ends as that map
of the entry arrays, index by index.
-/

set_option maxRecDepth 16384

noncomputable section

namespace Cert.KernelIdeal.Reg2

open Cert.KernelIdeal Cert.KernelIdeal.Gen Cert.KernelIdeal.Pay Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- `(½ · X0 + ½ · Xv) · Wᵀ + b` over all 50000 rows. -/
def lin (Xv X0 : S50000x128.Idx → EReal) (W : S128x128.Idx → EReal) (B : S1x128.Idx → EReal) : S50000x128.Idx → EReal :=
  fun i => affRow (mix X0 Xv) W B (i 0) (i 1)

/-- The block index maps over the grid: the two row operands' and the result's row block is the point's number, every
    other block index is zero. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of the scattered features' block at point `t` is row `5000·t + p` of that array. -/
theorem blk_xv (c : Dev nD) (t : Fin cfg2.N) (p : Fin 5000) (k : Fin 128) (r : Fin 50000) (hr : r.val = t.val * 5000 + p.val) :
    iblk2 V c 0 t (ix2 p k) = V c main_v35 (ix2 r k) := by
  obtain ⟨e0, e1, -⟩ := idx_facts t
  unfold iblk2
  rw [View.read_apply]
  show V c main_v35 (((cfg2.win 0).blk t).view.emb (ix2 p k)) = V c main_v35 (ix2 r k)
  refine congrArg (V c main_v35) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row `p` of the residual input's block at point `t` is row `5000·t + p` of that array. -/
theorem blk_x0 (c : Dev nD) (t : Fin cfg2.N) (p : Fin 5000) (k : Fin 128) (r : Fin 50000) (hr : r.val = t.val * 5000 + p.val) :
    iblk2 V c 1 t (ix2 p k) = V c main_arg3 (ix2 r k) := by
  obtain ⟨-, -, e0, e1, -⟩ := idx_facts t
  unfold iblk2
  rw [View.read_apply]
  show V c main_arg3 (((cfg2.win 1).blk t).view.emb (ix2 p k)) = V c main_arg3 (ix2 r k)
  refine congrArg (V c main_arg3) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- The weight's block at every point is the weight. -/
theorem blk_w (c : Dev nD) (t : Fin cfg2.N) (q : Fin 128) (k : Fin 128) :
    iblk2 V c 2 t (ix2 q k) = V c main_arg9 (ix2 q k) := by
  obtain ⟨-, -, -, -, e0, e1, -⟩ := idx_facts t
  unfold iblk2
  rw [View.read_apply]
  show V c main_arg9 (((cfg2.win 2).blk t).view.emb (ix2 q k)) = V c main_arg9 (ix2 q k)
  refine congrArg (V c main_arg9) (funext fun a => Fin.ext ?_)
  match a with
  | ⟨0, _⟩ => show win2_2.index t (0 : Fin 2) * 128 + 1 * q.val = q.val; omega
  | ⟨1, _⟩ => show win2_2.index t (1 : Fin 2) * 128 + 1 * k.val = k.val; omega

/-- The bias row's block at every point is the bias row. -/
theorem blk_b (c : Dev nD) (t : Fin cfg2.N) (q : Fin 128) :
    iblk2 V c 3 t (ix2 (0 : Fin 1) q) = V c main_v36 (ix2 (0 : Fin 1) q) := by
  obtain ⟨-, -, -, -, -, -, e0, e1, -⟩ := idx_facts t
  unfold iblk2
  rw [View.read_apply]
  show V c main_v36 (((cfg2.win 3).blk t).view.emb (ix2 (0 : Fin 1) q)) = V c main_v36 (ix2 (0 : Fin 1) q)
  refine congrArg (V c main_v36) (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 128 + 1 * q.val = q.val; omega

/-- What point `t` writes back is its block of the affine map of the mix of the arrays as the region finds them. -/
theorem flushed_eq (c : Dev nD) (t : Fin cfg2.N) :
    (dat2 V c).flushed 4 t = ((cfg2.win 4).blk t).view.read (Elt Ideal) (lin (V c main_v35) (V c main_arg3) (V c main_arg9) (V c main_v36)) := by
  obtain ⟨-, -, -, -, -, -, -, -, e0, e1⟩ := idx_facts t
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := by have h1 := t.isLt; have hN : cfg2.N = 10 := N_2; omega
  have hemb : ((cfg2.win 4).blk t).view.emb (ix2 p q) = (ix2 (⟨t.val * 5000 + p.val, by omega⟩ : Fin 50000) q : S50000x128.Idx) := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  show k2_pay1 (F := Ideal) (iblk2 V c 1 t) (iblk2 V c 0 t) (iblk2 V c 2 t) (iblk2 V c 3 t) (ix2 p q)
    = lin (V c main_v35) (V c main_arg3) (V c main_arg9) (V c main_v36) (((cfg2.win 4).blk t).view.emb (ix2 p q))
  rw [hemb]
  refine (pay2_apply (iblk2 V c 1 t) (iblk2 V c 0 t) (iblk2 V c 2 t) (iblk2 V c 3 t) p q).trans ?_
  unfold lin affRow rowDot mix
  rw [blk_b V c t q]
  refine congrArg (· + _) (Finset.sum_congr rfl fun k _ => ?_)
  rw [blk_x0 V c t p k ⟨t.val * 5000 + p.val, by omega⟩ rfl, blk_xv V c t p k ⟨t.val * 5000 + p.val, by omega⟩ rfl, blk_w V c t q k]

/-- An index of the result array is in point `t`'s block iff each coordinate is in the block's range. -/
theorem mem_blk (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v37).slice (win2_4.rect t)).set ↔ _
  rw [View.set_slice_whole, Rect.mem_set_unit]
  exact Iff.rfl

/-- Every row of the result lies in the block of the point numbered by its quotient by 5000. -/
theorem cover (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, e0, e1⟩ := idx_facts t
  have ht : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- After the region the result array is the affine map of the mix of the entry arrays. -/
theorem final (c : Dev nD) :
    (dat2 V c).arrAt 4 cfg2.N = lin (V c main_v35) (V c main_arg3) (V c main_arg9) (V c main_v36) :=
  (dat2 V c).arrAt_eq_of_cover 4 (lin (V c main_v35) (V c main_arg3) (V c main_arg9) (V c main_v36)) (fun t _ => flushed_eq V c t) cover

end Cert.KernelIdeal.Reg2

end
-- ==== Proof.KSpec.lean ====
import proofs.«163404_j49658411876804_1_alg».proof.Proof.Reg0
import proofs.«163404_j49658411876804_1_alg».proof.Proof.Reg1
import proofs.«163404_j49658411876804_1_alg».proof.Proof.Reg2

/-!
The value the kernel's program computes, as one function of its eleven arguments. Between the three dense stages the
program gathers rows by vertex and by hyperedge number (a negative number counts from the end of the axis, as jnp
indexing does) and sums rows into hyperedges and back into vertices with a scatter-add. These host steps are named
here and never opened: the reference applies the same steps to the same values.
-/

noncomputable section

namespace Cert.KernelIdeal.KSpec

open Cert.KernelIdeal Cert.KernelIdeal.Facts₀ Cert.KernelIdeal.Facts
open Idealize.ShloMosaic

abbrev F32 (s : Shape) := (⟨s, .f32⟩ : BufTy).Contents (Elt Ideal)
abbrev I32 (s : Shape) := (⟨s, .i32⟩ : BufTy).Contents (Elt Ideal)

/-- Row numbers as a one-column index array. -/
def colIdx (v : I32 S600000) : I32 S600000x1 :=
  broadcastInDim S600000x1 ![0] bcast_S600000_S600000x1_0 v

/-- Row numbers normalised for a gather along an axis of length `n`: a negative number has `n` added. -/
def normIdx (n : BitVec 32) (v : I32 S600000) : I32 S600000x1 :=
  colIdx (select (cmpi .slt v (broadcastInDim S600000 ![] bcast_S_S600000 (constantI S_ 32 0#32)))
    (addi v (broadcastInDim S600000 ![] bcast_S_S600000 (constantI S_ 32 n))) v)

/-- A bias vector as a one-row matrix. -/
def biasRow (b : F32 S128) : F32 S1x128 := fun i => shapeCast S1x128 b shapeCasts_S128_S1x128 i

/-- The incidence weights as a one-column matrix. -/
def weightCol (alpha : F32 S600000) : F32 S600000x1 := fun i => shapeCast S600000x1 alpha shapeCasts_S600000_S600000x1 i

/-- The left half of the second weight: its first 128 columns. -/
def wl (W2 : F32 S128x256) : F32 S128x128 := extractStridedSlice S128x128 ![0, 0] W2 slices_S128x256_S128x128_0_0

/-- The right half of the second weight: its last 128 columns. -/
def wr (W2 : F32 S128x256) : F32 S128x128 := extractStridedSlice S128x128 ![0, 128] W2 slices_S128x256_S128x128_0_128

/-- The rows of a vertex array at the pairs' vertex numbers. -/
def vertexRows (X : F32 S50000x128) (vertex : I32 S600000) : F32 S600000x128 :=
  Host.gather gather_S50000x128_S600000x1_S600000x128_1_0_n_n_0_1_1128 X (normIdx 50000#32 vertex)

/-- The rows of a hyperedge array at the pairs' hyperedge numbers. -/
def edgeRows (Xe : F32 S10000x128) (edges : I32 S600000) : F32 S600000x128 :=
  Host.gather gather_S10000x128_S600000x1_S600000x128_1_0_n_n_0_1_1128 Xe (normIdx 10000#32 edges)

/-- Hyperedge features: the weighted vertex rows summed into their hyperedges. -/
def edgeFeat (Y1 : F32 S50000x128) (vertex edges : I32 S600000) (w : F32 S600000x1) : F32 S10000x128 :=
  Host.scatterAdd (F := Ideal) scatter_S10000x128_S600000x1_S600000x128_1_0_0_1
    (broadcastInDim S10000x128 ![] bcast_S_S10000x128 (constant (F := Ideal) S_ .f32 0x00000000#32)) (colIdx edges)
    (mulf (vertexRows Y1 vertex) (broadcastInDim S600000x128 ![0, 1] bcast_S600000x1_S600000x128_0_1 w))

/-- Vertex features: the pairs' rows summed into their vertices. -/
def vertexFeat (Y2 : F32 S600000x128) (vertex : I32 S600000) : F32 S50000x128 :=
  Host.scatterAdd (F := Ideal) scatter_S50000x128_S600000x1_S600000x128_1_0_0_1
    (broadcastInDim S50000x128 ![] bcast_S_S50000x128 (constant (F := Ideal) S_ .f32 0x00000000#32)) (colIdx vertex) Y2

/-- The whole program: dense stage, gather and scatter into hyperedges, dense stage on the pairs, scatter into
    vertices, residual mix and dense stage. -/
def result (X : F32 S50000x128) (vertex edges : I32 S600000) (X0 : F32 S50000x128) (alpha : F32 S600000)
    (W1 : F32 S128x128) (b1 : F32 S128) (W2 : F32 S128x256) (b2 : F32 S128) (W : F32 S128x128) (b : F32 S128) : F32 S50000x128 :=
  Reg2.lin
    (vertexFeat
      (Reg1.pairAll (vertexRows X vertex)
        (edgeRows (edgeFeat (Reg0.lin X W1 (biasRow b1)) vertex edges (weightCol alpha)) edges)
        (wl W2) (wr W2) (biasRow b2) (weightCol alpha))
      vertex)
    X0 W (biasRow b)

end Cert.KernelIdeal.KSpec

end
-- ==== Proof.Chain.lean ====
import proofs.«163404_j49658411876804_1_alg».proof.Proof.Gen.KernelIdeal.Frame
import proofs.«163404_j49658411876804_1_alg».proof.Proof.KSpec
import Idealize.ShloMosaic.Lib.StableHlo.Run

/-!
The kernel program's result, read back through its run. The run's contents at each boundary are a fold: a stretch of
host operations rewrites the buffers it writes, a region leaves its result array at what its blocks wrote and every
other buffer as it was. Followed from the result array back to the launch memory, the fold is the composition
`KSpec.result` of the eleven arguments: each region contributes its whole-array map, each host stretch its
operations, and no stretch or region writes an argument.
-/

set_option maxRecDepth 16384
-- a stretch of some forty host operations is opened in one pass
set_option maxHeartbeats 4000000

noncomputable section

namespace Cert.KernelIdeal.Chain

open Cert.KernelIdeal Cert.KernelIdeal.Gen Cert.KernelIdeal.KSpec
open Idealize.ShloMosaic Idealize.ShloMosaic.TcCoe Idealize.SL.Sem Idealize.ShloMosaic.StableHlo

variable (m : (ℓ : Loc nD τ sig) → Buf (Elt Ideal) ℓ) (ρ : Dev nD → PrngReg)

/-- Opens one stretch of host operations at one buffer. -/
local macro "open_stretch" ops:ident : tactic => `(tactic| (dsimp only [$ops:ident]; after_results_simp))

/-! ## Before the first region: two reshapes -/

theorem W1_main_arg0 (c : Dev nD) : W1 m ρ c (Proc.devRef .tc main_arg0) = m ((c : Thread nD τ).loc main_arg0) := by
  show StableHlo.after hostOps0 (W0 m ρ c) (Proc.devRef .tc main_arg0) = _
  open_stretch hostOps0 <;> rfl
theorem W1_main_arg1 (c : Dev nD) : W1 m ρ c (Proc.devRef .tc main_arg1) = m ((c : Thread nD τ).loc main_arg1) := by
  show StableHlo.after hostOps0 (W0 m ρ c) (Proc.devRef .tc main_arg1) = _
  open_stretch hostOps0 <;> rfl
theorem W1_main_arg2 (c : Dev nD) : W1 m ρ c (Proc.devRef .tc main_arg2) = m ((c : Thread nD τ).loc main_arg2) := by
  show StableHlo.after hostOps0 (W0 m ρ c) (Proc.devRef .tc main_arg2) = _
  open_stretch hostOps0 <;> rfl
theorem W1_main_arg3 (c : Dev nD) : W1 m ρ c (Proc.devRef .tc main_arg3) = m ((c : Thread nD τ).loc main_arg3) := by
  show StableHlo.after hostOps0 (W0 m ρ c) (Proc.devRef .tc main_arg3) = _
  open_stretch hostOps0 <;> rfl
theorem W1_main_arg5 (c : Dev nD) : W1 m ρ c (Proc.devRef .tc main_arg5) = m ((c : Thread nD τ).loc main_arg5) := by
  show StableHlo.after hostOps0 (W0 m ρ c) (Proc.devRef .tc main_arg5) = _
  open_stretch hostOps0 <;> rfl
theorem W1_main_arg7 (c : Dev nD) : W1 m ρ c (Proc.devRef .tc main_arg7) = m ((c : Thread nD τ).loc main_arg7) := by
  show StableHlo.after hostOps0 (W0 m ρ c) (Proc.devRef .tc main_arg7) = _
  open_stretch hostOps0 <;> rfl
theorem W1_main_arg8 (c : Dev nD) : W1 m ρ c (Proc.devRef .tc main_arg8) = m ((c : Thread nD τ).loc main_arg8) := by
  show StableHlo.after hostOps0 (W0 m ρ c) (Proc.devRef .tc main_arg8) = _
  open_stretch hostOps0 <;> rfl
theorem W1_main_arg9 (c : Dev nD) : W1 m ρ c (Proc.devRef .tc main_arg9) = m ((c : Thread nD τ).loc main_arg9) := by
  show StableHlo.after hostOps0 (W0 m ρ c) (Proc.devRef .tc main_arg9) = _
  open_stretch hostOps0 <;> rfl
theorem W1_main_arg10 (c : Dev nD) : W1 m ρ c (Proc.devRef .tc main_arg10) = m ((c : Thread nD τ).loc main_arg10) := by
  show StableHlo.after hostOps0 (W0 m ρ c) (Proc.devRef .tc main_arg10) = _
  open_stretch hostOps0 <;> rfl
theorem W1_main_v0 (c : Dev nD) : W1 m ρ c (Proc.devRef .tc main_v0) = weightCol (m ((c : Thread nD τ).loc main_arg4)) := by
  show StableHlo.after hostOps0 (W0 m ρ c) (Proc.devRef .tc main_v0) = _
  open_stretch hostOps0 <;> rfl
theorem W1_main_v1 (c : Dev nD) : W1 m ρ c (Proc.devRef .tc main_v1) = biasRow (m ((c : Thread nD τ).loc main_arg6)) := by
  show StableHlo.after hostOps0 (W0 m ρ c) (Proc.devRef .tc main_v1) = _
  open_stretch hostOps0 <;> rfl

/-! ## After the first region -/

/-- The first region's result array: the affine map of the node features. -/
theorem W2_main_v2 (c : Dev nD) : W2 m ρ c (Proc.devRef .tc main_v2)
    = Reg0.lin (m ((c : Thread nD τ).loc main_arg0)) (m ((c : Thread nD τ).loc main_arg5)) (biasRow (m ((c : Thread nD τ).loc main_arg6))) := by
  refine (W2_arr m ρ c 3).trans ((Reg0.final (V1 m ρ) c).trans ?_)
  show Reg0.lin (W1 m ρ c (Proc.devRef .tc main_arg0)) (W1 m ρ c (Proc.devRef .tc main_arg5)) (W1 m ρ c (Proc.devRef .tc main_v1)) = _
  rw [W1_main_arg0, W1_main_arg5, W1_main_v1]
/-- The node features are an input of the first region: it leaves them as it found them. -/
theorem W2_main_arg0 (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (W1_main_arg0 m ρ c))
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W2_main_arg8 (c : Dev nD) : W2 m ρ c (Proc.devRef .tc main_arg8) = m ((c : Thread nD τ).loc main_arg8) :=
  (W2_of_ne m ρ c main_arg8 (by decide)).trans (W1_main_arg8 m ρ c)
theorem W2_main_arg9 (c : Dev nD) : W2 m ρ c (Proc.devRef .tc main_arg9) = m ((c : Thread nD τ).loc main_arg9) :=
  (W2_of_ne m ρ c main_arg9 (by decide)).trans (W1_main_arg9 m ρ c)
theorem W2_main_arg10 (c : Dev nD) : W2 m ρ c (Proc.devRef .tc main_arg10) = m ((c : Thread nD τ).loc main_arg10) :=
  (W2_of_ne m ρ c main_arg10 (by decide)).trans (W1_main_arg10 m ρ c)
theorem W2_main_v0 (c : Dev nD) : W2 m ρ c (Proc.devRef .tc main_v0) = weightCol (m ((c : Thread nD τ).loc main_arg4)) :=
  (W2_of_ne m ρ c main_v0 (by decide)).trans (W1_main_v0 m ρ c)

/-! ## Before the second region: gathers, the scatter-add into hyperedges, the weight's halves -/

theorem W3_main_arg1 (c : Dev nD) : W3 m ρ c (Proc.devRef .tc main_arg1) = m ((c : Thread nD τ).loc main_arg1) := by
  show StableHlo.after hostOps1 (W2 m ρ c) (Proc.devRef .tc main_arg1) = _
  open_stretch hostOps1; exact W2_main_arg1 m ρ c
theorem W3_main_arg3 (c : Dev nD) : W3 m ρ c (Proc.devRef .tc main_arg3) = m ((c : Thread nD τ).loc main_arg3) := by
  show StableHlo.after hostOps1 (W2 m ρ c) (Proc.devRef .tc main_arg3) = _
  open_stretch hostOps1; exact W2_main_arg3 m ρ c
theorem W3_main_arg9 (c : Dev nD) : W3 m ρ c (Proc.devRef .tc main_arg9) = m ((c : Thread nD τ).loc main_arg9) := by
  show StableHlo.after hostOps1 (W2 m ρ c) (Proc.devRef .tc main_arg9) = _
  open_stretch hostOps1; exact W2_main_arg9 m ρ c
theorem W3_main_arg10 (c : Dev nD) : W3 m ρ c (Proc.devRef .tc main_arg10) = m ((c : Thread nD τ).loc main_arg10) := by
  show StableHlo.after hostOps1 (W2 m ρ c) (Proc.devRef .tc main_arg10) = _
  open_stretch hostOps1; exact W2_main_arg10 m ρ c
theorem W3_main_v0 (c : Dev nD) : W3 m ρ c (Proc.devRef .tc main_v0) = weightCol (m ((c : Thread nD τ).loc main_arg4)) := by
  show StableHlo.after hostOps1 (W2 m ρ c) (Proc.devRef .tc main_v0) = _
  open_stretch hostOps1; exact W2_main_v0 m ρ c
/-- The node features' rows at the pairs' vertices. -/
theorem W3_main_v21 (c : Dev nD) : W3 m ρ c (Proc.devRef .tc main_v21) = vertexRows (m ((c : Thread nD τ).loc main_arg0)) (m ((c : Thread nD τ).loc main_arg1)) := by
  show StableHlo.after hostOps1 (W2 m ρ c) (Proc.devRef .tc main_v21) = _
  open_stretch hostOps1
  rw [W2_main_arg0, W2_main_arg1]
  rfl
/-- The hyperedge features' rows at the pairs' hyperedges. -/
theorem W3_main_v28 (c : Dev nD) : W3 m ρ c (Proc.devRef .tc main_v28)
    = edgeRows (edgeFeat (Reg0.lin (m ((c : Thread nD τ).loc main_arg0)) (m ((c : Thread nD τ).loc main_arg5)) (biasRow (m ((c : Thread nD τ).loc main_arg6)))) (m ((c : Thread nD τ).loc main_arg1)) (m ((c : Thread nD τ).loc main_arg2)) (weightCol (m ((c : Thread nD τ).loc main_arg4)))) (m ((c : Thread nD τ).loc main_arg2)) := by
  show StableHlo.after hostOps1 (W2 m ρ c) (Proc.devRef .tc main_v28) = _
  open_stretch hostOps1
  rw [W2_main_v2, W2_main_arg1, W2_main_arg2, W2_main_v0]
  rfl
theorem W3_main_v29 (c : Dev nD) : W3 m ρ c (Proc.devRef .tc main_v29) = wl (m ((c : Thread nD τ).loc main_arg7)) := by
  show StableHlo.after hostOps1 (W2 m ρ c) (Proc.devRef .tc main_v29) = _
  open_stretch hostOps1
  rw [W2_main_arg7]
  rfl
theorem W3_main_v30 (c : Dev nD) : W3 m ρ c (Proc.devRef .tc main_v30) = wr (m ((c : Thread nD τ).loc main_arg7)) := by
  show StableHlo.after hostOps1 (W2 m ρ c) (Proc.devRef .tc main_v30) = _
  open_stretch hostOps1
  rw [W2_main_arg7]
  rfl
theorem W3_main_v31 (c : Dev nD) : W3 m ρ c (Proc.devRef .tc main_v31) = biasRow (m ((c : Thread nD τ).loc main_arg8)) := by
  show StableHlo.after hostOps1 (W2 m ρ c) (Proc.devRef .tc main_v31) = _
  open_stretch hostOps1
  rw [W2_main_arg8]
  rfl

/-! ## After the second region -/

/-- The second region's result array: the pairs' rows through both weight halves, weighted. -/
theorem W4_main_v32 (c : Dev nD) : W4 m ρ c (Proc.devRef .tc main_v32)
    = Reg1.pairAll (vertexRows (m ((c : Thread nD τ).loc main_arg0)) (m ((c : Thread nD τ).loc main_arg1)))
        (edgeRows (edgeFeat (Reg0.lin (m ((c : Thread nD τ).loc main_arg0)) (m ((c : Thread nD τ).loc main_arg5)) (biasRow (m ((c : Thread nD τ).loc main_arg6)))) (m ((c : Thread nD τ).loc main_arg1)) (m ((c : Thread nD τ).loc main_arg2)) (weightCol (m ((c : Thread nD τ).loc main_arg4)))) (m ((c : Thread nD τ).loc main_arg2)))
        (wl (m ((c : Thread nD τ).loc main_arg7))) (wr (m ((c : Thread nD τ).loc main_arg7))) (biasRow (m ((c : Thread nD τ).loc main_arg8))) (weightCol (m ((c : Thread nD τ).loc main_arg4))) := by
  refine (W4_arr m ρ c 6).trans ((Reg1.final (V3 m ρ) c).trans ?_)
  show Reg1.pairAll (W3 m ρ c (Proc.devRef .tc main_v21)) (W3 m ρ c (Proc.devRef .tc main_v28)) (W3 m ρ c (Proc.devRef .tc main_v29))
    (W3 m ρ c (Proc.devRef .tc main_v30)) (W3 m ρ c (Proc.devRef .tc main_v31)) (W3 m ρ c (Proc.devRef .tc main_v0)) = _
  rw [W3_main_v21, W3_main_v28, W3_main_v29, W3_main_v30, W3_main_v31, W3_main_v0]
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg9 (c : Dev nD) : W4 m ρ c (Proc.devRef .tc main_arg9) = m ((c : Thread nD τ).loc main_arg9) :=
  (W4_of_ne m ρ c main_arg9 (by decide)).trans (W3_main_arg9 m ρ c)
theorem W4_main_arg10 (c : Dev nD) : W4 m ρ c (Proc.devRef .tc main_arg10) = m ((c : Thread nD τ).loc main_arg10) :=
  (W4_of_ne m ρ c main_arg10 (by decide)).trans (W3_main_arg10 m ρ c)

/-! ## Before the third region: the scatter-add into vertices -/

theorem W5_main_arg3 (c : Dev nD) : W5 m ρ c (Proc.devRef .tc main_arg3) = m ((c : Thread nD τ).loc main_arg3) := by
  show StableHlo.after hostOps2 (W4 m ρ c) (Proc.devRef .tc main_arg3) = _
  open_stretch hostOps2; exact W4_main_arg3 m ρ c
theorem W5_main_arg9 (c : Dev nD) : W5 m ρ c (Proc.devRef .tc main_arg9) = m ((c : Thread nD τ).loc main_arg9) := by
  show StableHlo.after hostOps2 (W4 m ρ c) (Proc.devRef .tc main_arg9) = _
  open_stretch hostOps2; exact W4_main_arg9 m ρ c
theorem W5_main_v36 (c : Dev nD) : W5 m ρ c (Proc.devRef .tc main_v36) = biasRow (m ((c : Thread nD τ).loc main_arg10)) := by
  show StableHlo.after hostOps2 (W4 m ρ c) (Proc.devRef .tc main_v36) = _
  open_stretch hostOps2
  rw [W4_main_arg10]
  rfl
/-- The vertex features: the second region's rows summed into their vertices. -/
theorem W5_main_v35 (c : Dev nD) : W5 m ρ c (Proc.devRef .tc main_v35)
    = vertexFeat (Reg1.pairAll (vertexRows (m ((c : Thread nD τ).loc main_arg0)) (m ((c : Thread nD τ).loc main_arg1)))
        (edgeRows (edgeFeat (Reg0.lin (m ((c : Thread nD τ).loc main_arg0)) (m ((c : Thread nD τ).loc main_arg5)) (biasRow (m ((c : Thread nD τ).loc main_arg6)))) (m ((c : Thread nD τ).loc main_arg1)) (m ((c : Thread nD τ).loc main_arg2)) (weightCol (m ((c : Thread nD τ).loc main_arg4)))) (m ((c : Thread nD τ).loc main_arg2)))
        (wl (m ((c : Thread nD τ).loc main_arg7))) (wr (m ((c : Thread nD τ).loc main_arg7))) (biasRow (m ((c : Thread nD τ).loc main_arg8))) (weightCol (m ((c : Thread nD τ).loc main_arg4)))) (m ((c : Thread nD τ).loc main_arg1)) := by
  show StableHlo.after hostOps2 (W4 m ρ c) (Proc.devRef .tc main_v35) = _
  open_stretch hostOps2
  rw [W4_main_v32, W4_main_arg1]
  rfl

/-! ## After the third region: the result -/

/-- The result array at the end of the run is the program's value of the launch arguments. -/
theorem W6_main_v37 (c : Dev nD) : W6 m ρ c (Proc.devRef .tc main_v37)
    = KSpec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 4).trans ((Reg2.final (V5 m ρ) c).trans ?_)
  show Reg2.lin (W5 m ρ c (Proc.devRef .tc main_v35)) (W5 m ρ c (Proc.devRef .tc main_arg3)) (W5 m ρ c (Proc.devRef .tc main_arg9))
    (W5 m ρ c (Proc.devRef .tc main_v36)) = _
  rw [W5_main_v35, W5_main_arg3, W5_main_arg9, W5_main_v36]
  rfl

end Cert.KernelIdeal.Chain

end
-- ==== Proof.RefSide.lean ====
import proofs.«163404_j49658411876804_1_alg».proof.Proof.Gen.ReferenceIdeal.Read
import proofs.«163404_j49658411876804_1_alg».proof.Proof.KSpec
import Idealize.ShloMosaic.Lib.ValueIdx
import Idealize.ShloMosaic.Lib.ValueLayout
import Idealize.ShloMosaic.Lib.Pipeline.Value
import Idealize.ShloMosaic.PureOps.Ideal.Laws

/-!
The reference's three dense stages are the kernel's three whole-array maps. Over the extended reals a `dot_general`
with one contracted axis is the plain sum over that axis, so:
* `X · W1ᵀ + b1` is the first map as it stands;
* the product of the concatenated pair rows `[A | B]` with `W2ᵀ` contracts 256 columns, and a sum over 256 columns
  is the sum over the first 128 plus the sum over the last 128 — addition of extended reals is associative and
  commutative, so no finiteness is needed — which is `A` against the left half of `W2` plus `B` against its right half;
* the residual mix is the same two halves added in the other order.
A bias broadcast along the rows, and the incidence weights as a column, read the same entries on both sides.
-/

noncomputable section

namespace Cert.Bridge

open Cert.ReferenceIdeal Cert.ReferenceIdeal.Facts₀ Cert.ReferenceIdeal.Facts
open Idealize.ShloMosaic Idealize.ShloMosaic.ValueIdx
open Cert.KernelIdeal.KSpec (biasRow weightCol wl wr)
open Cert.KernelIdeal.Pay (pairRow mix)
open Cert.Spec

abbrev F32 (s : Shape) := (⟨s, .f32⟩ : BufTy).Contents (Elt Ideal)

/-! ## The two contractions at an entry -/

/-- A 50000-row array times a 128×128 matrix, at entry `(p, q)`: the sum over the contracted coordinate. -/
theorem dot128_apply (l : F32 S50000x128) (r : F32 S128x128) (p : Fin 50000) (q : Fin 128) :
    Host.dotGeneral (F := Ideal) (φ₁ := .f32) (φ₂ := .f32) dot_S50000x128_S128x128_S50000x128_1_0_0_1_n_n none l r (ix2 p q)
      = ∑ k : Fin 128, l (ix2 p k) * r (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact Cert.ReferenceIdeal.Read.lhs_main_v2_0 _ _
    | ⟨1, _⟩ => exact (Cert.ReferenceIdeal.Read.lhs_main_v2_1 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (Cert.ReferenceIdeal.Read.rhs_main_v2_0 _ _).trans hk
    | ⟨1, _⟩ => exact Cert.ReferenceIdeal.Read.rhs_main_v2_1 _ _)
  rw [el, er]

/-- A 600000×256 array times a 256×128 matrix, at entry `(p, q)`: the sum over the 256 contracted coordinates. -/
theorem dot256_apply (l : F32 S600000x256) (r : F32 S256x128) (p : Fin 600000) (q : Fin 128) :
    Host.dotGeneral (F := Ideal) (φ₁ := .f32) (φ₂ := .f32) dot_S600000x256_S256x128_S600000x128_1_0_0_1_n_n none l r (ix2 p q)
      = ∑ k : Fin 256, l (ix2 p k) * r (ix2 k q) := by
  simp only [Host.dotGeneral]
  rw [Ideal.dotGeneral_apply, ← Equiv.sum_comp (contrEquiv1 dot_S600000x256_S256x128_S600000x128_1_0_0_1_n_n 256 rfl rfl).symm]
  refine Finset.sum_congr rfl fun k _ => ?_
  have hk := contrEquiv1_symm_val dot_S600000x256_S256x128_S600000x128_1_0_0_1_n_n 256 rfl rfl k
  have el : dot_S600000x256_S256x128_S600000x128_1_0_0_1_n_n.lhsIdx (ix2 p q) ((contrEquiv1 dot_S600000x256_S256x128_S600000x128_1_0_0_1_n_n 256 rfl rfl).symm k) = ix2 p k := funext fun a => Fin.ext (by
    match a with
    | ⟨0, _⟩ => exact Cert.ReferenceIdeal.Read.lhs_main_v34_0 _ _
    | ⟨1, _⟩ => exact (Cert.ReferenceIdeal.Read.lhs_main_v34_1 _ _).trans hk)
  have er : dot_S600000x256_S256x128_S600000x128_1_0_0_1_n_n.rhsIdx (ix2 p q) ((contrEquiv1 dot_S600000x256_S256x128_S600000x128_1_0_0_1_n_n 256 rfl rfl).symm k) = ix2 k q := funext fun a => Fin.ext (by
    match a with
    | ⟨0, _⟩ => exact (Cert.ReferenceIdeal.Read.rhs_main_v34_0 _ _).trans hk
    | ⟨1, _⟩ => exact Cert.ReferenceIdeal.Read.rhs_main_v34_1 _ _)
  rw [el, er]

/-- A sum over 256 coordinates is the sum over the first 128 plus the sum over the last 128. -/
theorem sum_halves (g : Fin 256 → EReal) :
    ∑ k : Fin 256, g k = (∑ k : Fin 128, g ⟨k.val, by omega⟩) + ∑ k : Fin 128, g ⟨128 + k.val, by omega⟩ :=
  Fin.sum_univ_add (a := 128) (b := 128) g

/-! ## A bias vector broadcast to a row and then along the rows -/

/-- Entry `(p, q)` of a bias vector broadcast to one row and then to `M` rows is its entry `q`. -/
theorem bias_apply {M : Nat} (h1 : (⟨1, ![128]⟩ : Shape).BroadcastsInDim ⟨2, ![1, 128]⟩ (![1] : Fin 1 → Fin 2))
    (h2 : (⟨2, ![1, 128]⟩ : Shape).BroadcastsInDim ⟨2, ![M, 128]⟩ (![0, 1] : Fin 2 → Fin 2))
    (b : (⟨1, ![128]⟩ : Shape).Idx → EReal) (p : Fin M) (q : Fin 128) :
    broadcastInDim ⟨2, ![M, 128]⟩ ![0, 1] h2 (broadcastInDim ⟨2, ![1, 128]⟩ ![1] h1 b) (ix2 p q) = b (ix1 q) :=
  (broadcastInDim_apply _ h2 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ h1 b (ix2 (0 : Fin 1) q) (ix1 q) (fun a => match a with
    | ⟨0, _⟩ => by show q.val = if (128 : Nat) = 1 then 0 else q.val; rw [if_neg (by decide)]))

/-- The kernel's bias row at `(0, q)` is the bias vector's entry `q`. -/
theorem biasRow_apply (b : F32 S128) (q : Fin 128) : biasRow b (ix2 (0 : Fin 1) q) = b (ix1 q) := by
  unfold biasRow
  exact shapeCast_a_1a_apply b _ (0 : Fin 1) q

/-! ## The incidence weights as a column -/

/-- The reference's broadcast of the incidence weights to a column is the kernel's reshape of them. -/
theorem ref_alpha (alpha : F32 S600000) :
    broadcastInDim S600000x1 ![0] bcast_S600000_S600000x1_0 alpha = weightCol alpha := by
  funext i
  obtain ⟨p, u, rfl⟩ : ∃ (p : Fin 600000) (u : Fin 1), i = ix2 p u := ⟨i 0, i 1, eq_ix2 i⟩
  unfold weightCol
  refine (broadcastInDim_apply _ bcast_S600000_S600000x1_0 alpha (ix2 p u) (ix1 p) (fun a => match a with
    | ⟨0, _⟩ => by show p.val = if (600000 : Nat) = 1 then 0 else p.val; rw [if_neg (by decide)])).trans ?_
  refine (shapeCast_apply alpha _ (ix2 p u) (ix1 p) ?_).symm
  rw [Shape.rowMajor_val_two, Shape.rowMajor_val_one]
  show p.val = p.val * 1 + u.val
  omega

/-! ## The first stage -/

theorem ref_lin1 (X : F32 S50000x128) (W : F32 S128x128) (b : F32 S128) :
    addf (Host.dotGeneral (F := Ideal) (φ₁ := .f32) (φ₂ := .f32) dot_S50000x128_S128x128_S50000x128_1_0_0_1_n_n none X (transpose S128x128 [1, 0] W transposes_S128x128_S128x128_1_0))
      (broadcastInDim S50000x128 ![0, 1] bcast_S1x128_S50000x128_0_1 (broadcastInDim S1x128 ![1] bcast_S128_S1x128_1 b))
    = Cert.KernelIdeal.Reg0.lin X W (biasRow b) := by
  funext i
  obtain ⟨p, q, rfl⟩ : ∃ (p : Fin 50000) (q : Fin 128), i = ix2 p q := ⟨i 0, i 1, eq_ix2 i⟩
  rw [addf_apply, dot128_apply, bias_apply]
  show _ = affRow X W (biasRow b) p q
  unfold affRow rowDot
  rw [biasRow_apply]
  refine congrArg (· + _) (Finset.sum_congr rfl fun k _ => ?_)
  rw [transpose_ix2_apply]

/-! ## The second stage -/

theorem ref_pair (A B : F32 S600000x128) (W2 : F32 S128x256) (b2 : F32 S128) (w : F32 S600000x1) :
    mulf (addf (Host.dotGeneral (F := Ideal) (φ₁ := .f32) (φ₂ := .f32) dot_S600000x256_S256x128_S600000x128_1_0_0_1_n_n none
        (concatenate S600000x256 1 [⟨S600000x128, A⟩, ⟨S600000x128, B⟩] concatenates_S600000x128_S600000x128_S600000x256_d1)
        (transpose S256x128 [1, 0] W2 transposes_S128x256_S256x128_1_0))
      (broadcastInDim S600000x128 ![0, 1] bcast_S1x128_S600000x128_0_1 (broadcastInDim S1x128 ![1] bcast_S128_S1x128_1 b2)))
      (broadcastInDim S600000x128 ![0, 1] bcast_S600000x1_S600000x128_0_1 w)
    = Cert.KernelIdeal.Reg1.pairAll A B (wl W2) (wr W2) (biasRow b2) w := by
  funext i
  obtain ⟨p, q, rfl⟩ : ∃ (p : Fin 600000) (q : Fin 128), i = ix2 p q := ⟨i 0, i 1, eq_ix2 i⟩
  rw [mulf_apply, addf_apply, dot256_apply, bias_apply, sum_halves]
  show _ = pairRow A B (wl W2) (wr W2) (biasRow b2) w p q
  unfold pairRow rowDot
  rw [biasRow_apply]
  have hw : broadcastInDim S600000x128 ![0, 1] bcast_S600000x1_S600000x128_0_1 w (ix2 p q) = w (ix2 p (0 : Fin 1)) :=
    broadcastInDim_apply _ bcast_S600000x1_S600000x128_0_1 w (ix2 p q) (ix2 p (0 : Fin 1)) (fun a => match a with
      | ⟨0, _⟩ => by show p.val = if (600000 : Nat) = 1 then 0 else p.val; rw [if_neg (by decide)]
      | ⟨1, _⟩ => by show 0 = if (1 : Nat) = 1 then 0 else q.val; rw [if_pos rfl])
  rw [hw]
  refine congrArg (· * _) (congrArg (· + _) ?_)
  refine congrArg₂ (· + ·) (Finset.sum_congr rfl fun k _ => ?_) (Finset.sum_congr rfl fun k _ => ?_)
  · -- a column below 128 reads the vertex rows and the weight's left half
    have hc : concatenate S600000x256 1 [⟨S600000x128, A⟩, ⟨S600000x128, B⟩] concatenates_S600000x128_S600000x128_S600000x256_d1
        (ix2 p (⟨k.val, by omega⟩ : Fin 256)) = A (ix2 p k) :=
      concatenate_pair_apply_left 1 A B concatenates_S600000x128_S600000x128_S600000x256_d1 (ix2 p (⟨k.val, by omega⟩ : Fin 256)) rfl (ix2 p k)
        (fun b => match b with | ⟨0, _⟩ => rfl | ⟨1, _⟩ => rfl)
    have hl : wl W2 (ix2 q k) = W2 (ix2 q (⟨k.val, by omega⟩ : Fin 256)) := by
      unfold wl
      exact slice2_axis1_apply 0 W2 _ q k _ (by show k.val = 0 + k.val; omega)
    rw [hc, hl, transpose_ix2_apply]
  · -- a column from 128 on reads the hyperedge rows and the weight's right half
    have hc : concatenate S600000x256 1 [⟨S600000x128, A⟩, ⟨S600000x128, B⟩] concatenates_S600000x128_S600000x128_S600000x256_d1
        (ix2 p (⟨128 + k.val, by omega⟩ : Fin 256)) = B (ix2 p k) :=
      concatenate_pair_apply_right 1 A B concatenates_S600000x128_S600000x128_S600000x256_d1 (ix2 p (⟨128 + k.val, by omega⟩ : Fin 256)) rfl rfl (ix2 p k)
        (fun b hb => match b, hb with | ⟨0, _⟩, _ => rfl | ⟨1, _⟩, hb => absurd rfl hb)
        (by show k.val + 128 = 128 + k.val; omega)
    have hr : wr W2 (ix2 q k) = W2 (ix2 q (⟨128 + k.val, by omega⟩ : Fin 256)) := by
      unfold wr
      exact slice2_axis1_apply 128 W2 _ q k _ rfl
    rw [hc, hr, transpose_ix2_apply]

/-! ## The third stage -/

/-- The constant one half, broadcast, at any entry. -/
theorem half_apply (i : S50000x128.Idx) :
    broadcastInDim S50000x128 ![] bcast_S_S50000x128 (constant (F := Ideal) S_ .f32 0x3F000000#32) i = Ideal.ofBits .f32 0x3F000000#32 :=
  broadcastInDim_apply _ bcast_S_S50000x128 _ i ix0 (fun a => a.elim0)

theorem ref_lin3 (Xv X0 : F32 S50000x128) (W : F32 S128x128) (b : F32 S128) :
    addf (Host.dotGeneral (F := Ideal) (φ₁ := .f32) (φ₂ := .f32) dot_S50000x128_S128x128_S50000x128_1_0_0_1_n_n none
        (addf (mulf (broadcastInDim S50000x128 ![] bcast_S_S50000x128 (constant (F := Ideal) S_ .f32 0x3F000000#32)) Xv)
          (mulf (broadcastInDim S50000x128 ![] bcast_S_S50000x128 (constant (F := Ideal) S_ .f32 0x3F000000#32)) X0))
        (transpose S128x128 [1, 0] W transposes_S128x128_S128x128_1_0))
      (broadcastInDim S50000x128 ![0, 1] bcast_S1x128_S50000x128_0_1 (broadcastInDim S1x128 ![1] bcast_S128_S1x128_1 b))
    = Cert.KernelIdeal.Reg2.lin Xv X0 W (biasRow b) := by
  funext i
  obtain ⟨p, q, rfl⟩ : ∃ (p : Fin 50000) (q : Fin 128), i = ix2 p q := ⟨i 0, i 1, eq_ix2 i⟩
  rw [addf_apply, dot128_apply, bias_apply]
  show _ = affRow (mix X0 Xv) W (biasRow b) p q
  unfold affRow rowDot mix
  rw [biasRow_apply]
  refine congrArg (· + _) (Finset.sum_congr rfl fun k _ => ?_)
  rw [addf_apply, mulf_apply, mulf_apply, half_apply, transpose_ix2_apply, add_comm]

end Cert.Bridge

end
-- ==== Proof.lean ====
/-
  The dense stages of a hypergraph convolution (gather, linear map, scatter-add, twice) as three row-tiled kernels
  against the plain jnp reference, over the extended reals.

  Both programs compute, from the node features X, the incidence pairs (vertex, edges) with weights alpha, and three
  linear layers:  Y1 = X·W1ᵀ + b1;  hyperedge features Xe = Σ over pairs of alpha·Y1[vertex] into edges;  per pair
  Y2 = ([X[vertex] | Xe[edges]]·W2ᵀ + b2)·alpha;  vertex features Xv = Σ over pairs of Y2 into vertex;  and the result
  (½·Xv + ½·X0)·Wᵀ + b.  The kernel program computes the three linear maps block of rows by block of rows, splits the
  256-column contraction of the middle one into its two 128-column halves, and adds the two halves of the residual mix
  in the other order; the gathers and scatter-adds between them are the reference's own operations. So the two results
  are one function of the arguments: a sum over 256 columns is the sum of its two halves, and addition commutes
  (no finiteness of the inputs is needed for either).

  The kernel's run and the frames come from the generated frame certificate; the reference's run is generated; what is
  written here is that each region's blocks assemble to one whole-array map (Reg0, Reg1, Reg2 over Pay0, Pay1, Pay2),
  that the run's final contents are the composition of those maps and the host steps (Chain over KSpec), and that the
  reference's stages are the same maps (RefSide).
-/
import proofs.«163404_j49658411876804_1_alg».proof.Defs
import proofs.«163404_j49658411876804_1_alg».proof.Proof.Gen.Kernel
import proofs.«163404_j49658411876804_1_alg».proof.Proof.Gen.Kernel.Frame
import proofs.«163404_j49658411876804_1_alg».proof.Proof.Gen.KernelIdeal
import proofs.«163404_j49658411876804_1_alg».proof.Proof.Gen.KernelIdeal.Frame
import proofs.«163404_j49658411876804_1_alg».proof.Proof.Gen.ReferenceIdeal
import proofs.«163404_j49658411876804_1_alg».proof.Proof.Gen.ReferenceIdeal.Run
import proofs.«163404_j49658411876804_1_alg».proof.Proof.Gen.Pre_finite_inputs
import proofs.«163404_j49658411876804_1_alg».proof.Proof.RunValue
import proofs.«163404_j49658411876804_1_alg».proof.Proof.Chain
import proofs.«163404_j49658411876804_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

set_option maxHeartbeats 4000000 in
/-- Both programs end with the result array at `KSpec.result` of the arguments: the kernel's by its run read back
    through the three regions, the reference's by its generated run with each dense stage rewritten to the kernel's
    whole-array map; the gathers and scatter-adds in between are the same operations of the same values. -/
theorem algebraic : Cert.algebraic_KernelIdeal_ReferenceIdeal := by
  intro m ρ m' ρ' _ hagree
  refine ⟨fun c => Cert.KernelIdeal.KSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.W6_main_v37 m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10⟩ := hagree c
    rw [(h c).1, e0, e1, e2, e3, e4, e5, e6, e7, e8, e9, e10,
      Cert.Bridge.ref_lin3, Cert.Bridge.ref_lin1, Cert.Bridge.ref_alpha, Cert.Bridge.ref_pair]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
